-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32 : Shape := ⟨2, ![16384, 32]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel

variable [Facts]

def fn {F : FTy → Type} [FloatOps F] (main_arg0 : FVec F S16384x32 .f32) (main_arg1 : FVec F S16384x32 .f32) : IVec S_ 1 :=
  let main_v0 : FVec F S16384x32 .f32 := Host.absf main_arg0
  let main_cst : FVec F S_ .f32 := constant S_ .f32 0x7F800000#32
  let main_v1 : FVec F S16384x32 .f32 := broadcastInDim S16384x32 ![] bcast_S_S16384x32 main_cst
  let main_v2 : IVec S16384x32 1 := cmpf .olt main_v0 main_v1
  let main_c : IVec S_ 1 := constantI S_ 1 1#1
  let main_v3 : IVec S_ 1 := (fun x v => Host.reduce IntOp.andi x v reducesTo_S16384x32_S_d0_1 h_S_) main_v2 main_c
  let main_v4 : FVec F S16384x32 .f32 := Host.absf main_arg1
  let main_cst_0 : FVec F S_ .f32 := constant S_ .f32 0x7F800000#32
  let main_v5 : FVec F S16384x32 .f32 := broadcastInDim S16384x32 ![] bcast_S_S16384x32 main_cst_0
  let main_v6 : IVec S16384x32 1 := cmpf .olt main_v4 main_v5
  let main_c_1 : IVec S_ 1 := constantI S_ 1 1#1
  let main_v7 : IVec S_ 1 := (fun x v => Host.reduce IntOp.andi x v reducesTo_S16384x32_S_d0_1 h_S_) main_v6 main_c_1
  let main_v8 : IVec S_ 1 := andi main_v3 main_v7
  main_v8
-- ==== Kernel.lean ====
abbrev S16384x32 : Shape := ⟨2, ![16384, 32]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S1024x32 : Shape := ⟨2, ![1024, 32]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 19
  | .vmem => 10
  | .smem => 0
  | _ => 0

abbrev bufTy : (tb : Table) → Fin (tcTables nBuf tb) → BufTy
  | .hbm, ⟨0, _⟩ => ⟨S16384x32, .f32⟩
  | .hbm, ⟨1, _⟩ => ⟨S16384x32, .f32⟩
  | .hbm, ⟨2, _⟩ => ⟨S16384x32, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S16384x32, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S1x16384, .f32⟩
  | .hbm, ⟨17, _⟩ => ⟨S16384x1, .f32⟩
  | .hbm, ⟨18, _⟩ => ⟨S16384, .f32⟩
  | .local _ .vmem, ⟨0, _⟩ => ⟨S1024x32, .f32⟩
  | .local _ .vmem, ⟨1, _⟩ => ⟨S1024x32, .f32⟩
  | .local _ .vmem, ⟨2, _⟩ => ⟨S1024x32, .f32⟩
  | .local _ .vmem, ⟨3, _⟩ => ⟨S1024x32, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1, .f32⟩
  | .local _ .vmem, ⟨9, _⟩ => ⟨S1024x1, .f32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S16384x32_S16384_d1 : S16384x32.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  shapeCasts_S16384x1_S1x16384 : S16384x1.ShapeCasts S1x16384
  inb_S1024x1_S1024x1_0_0 : ∀ a, (![0, 0] : Fin 2 → Nat) a + S1024x1.size a ≤ S1024x1.size a
  h_S1024x1 : 0 < S1024x1.numel
  inb_S1024x32_S1024x32_0_0 : ∀ a, (![0, 0] : Fin 2 → Nat) a + S1024x32.size a ≤ S1024x32.size a
  h_S1024x32 : 0 < S1024x32.numel
  bitsLt_bf16_f32 : FTy.bits .bf16 < FTy.bits .f32
  shapeCasts_S1024x1_S1024x1 : S1024x1.ShapeCasts S1024x1
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  shapeCasts_S16384x1_S16384 : S16384x1.ShapeCasts S16384
  dot_S1024x32_S1024x32_S1024x1024_1_1_0_0_n_n_wf : DotDims.WF S1024x32 S1024x32 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x32.size a ≤ S16384x32.size a
  hwx0_0 : ∀ i : grid0.Coords, EltTy.bits .f32 = 32 ∨ (Rect.block (s := S16384x32) S1024x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x32.size a ≤ S16384x32.size a
  hwx0_1 : ∀ i : grid0.Coords, EltTy.bits .f32 = 32 ∨ (Rect.block (s := S16384x32) S1024x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x16384.size a
  hwx0_3 : ∀ i : grid0.Coords, EltTy.bits .f32 = 32 ∨ (Rect.block (s := S1x16384) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S16384x1.size a
  hwx0_4 : ∀ i : grid0.Coords, EltTy.bits .f32 = 32 ∨ (Rect.block (s := S16384x1) S1024x1.size (cc0_transform_4 i) (hinb0_4 i)).WholeWords (EltTy.packing .f32)

variable [Facts₀]

def dot_S1024x32_S1024x32_S1024x1024_1_1_0_0_n_n : DotDims S1024x32 S1024x32 S1024x1024 where
  lhsContracting := [1]
  rhsContracting := [1]
  lhsNonContracting := [0]
  rhsNonContracting := [0]
  lhsBatch := []
  rhsBatch := []
  wf := dot_S1024x32_S1024x32_S1024x1024_1_1_0_0_n_n_wf

abbrev win0_0 : Pipeline.Window sig grid0 :=
  Pipeline.Window.ofSpec (Memref.whole main_arg0) S1024x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x32 : Shape := ⟨2, ![16384, 32]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S32x16384 : Shape := ⟨2, ![32, 16384]⟩

abbrev nBuf : Space → Nat
  | .hbm => 31
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S16384x32, .f32⟩
  | .hbm, ⟨2, _⟩ => ⟨S16384x32, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x32, .f32⟩
  | .hbm, ⟨7, _⟩ => ⟨S_, .f32⟩
  | .hbm, ⟨8, _⟩ => ⟨S16384, .f32⟩
  | .hbm, ⟨9, _⟩ => ⟨S1x16384, .f32⟩
  | .hbm, ⟨10, _⟩ => ⟨S16384x16384, .f32⟩
  | .hbm, ⟨11, _⟩ => ⟨S16384x16384, .f32⟩
  | .hbm, ⟨12, _⟩ => ⟨S16384x16384, .f32⟩
  | .hbm, ⟨13, _⟩ => ⟨S32x16384, .f32⟩
  | .hbm, ⟨14, _⟩ => ⟨S16384x16384, .f32⟩
  | .hbm, ⟨15, _⟩ => ⟨S_, .f32⟩
  | .hbm, ⟨16, _⟩ => ⟨S16384x16384, .f32⟩
  | .hbm, ⟨17, _⟩ => ⟨S16384x16384, .f32⟩
  | .hbm, ⟨18, _⟩ => ⟨S16384x16384, .f32⟩
  | .hbm, ⟨19, _⟩ => ⟨S_, .f32⟩
  | .hbm, ⟨20, _⟩ => ⟨S16384x16384, .f32⟩
  | .hbm, ⟨21, _⟩ => ⟨S16384x16384, .f32⟩
  | .hbm, ⟨22, _⟩ => ⟨S_, .f32⟩
  | .hbm, ⟨23, _⟩ => ⟨S16384x16384, .f32⟩
  | .hbm, ⟨24, _⟩ => ⟨S16384x16384, .f32⟩
  | .hbm, ⟨25, _⟩ => ⟨S16384x16384, .f32⟩
  | .hbm, ⟨26, _⟩ => ⟨S_, .f32⟩
  | .hbm, ⟨27, _⟩ => ⟨S16384, .f32⟩
  | .hbm, ⟨28, _⟩ => ⟨S_, .f32⟩
  | .hbm, ⟨29, _⟩ => ⟨S16384, .f32⟩
  | .hbm, ⟨30, _⟩ => ⟨S16384, .f32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  reducesTo_S16384x32_S16384_d1 : S16384x32.ReducesTo [1] S16384
  h_S_ : 0 < S_.numel
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  transposes_S16384x32_S32x16384_1_0 : S16384x32.Transposes [1, 0] S32x16384
  bcast_S_S16384x16384 : S_.BroadcastsInDim S16384x16384 (![] : Fin 0 → Fin S16384x16384.rank)
  reducesTo_S16384x16384_S16384_d1 : S16384x16384.ReducesTo [1] S16384
  bcast_S_S16384 : S_.BroadcastsInDim S16384 (![] : Fin 0 → Fin S16384.rank)
  dot_S16384x32_S32x16384_S16384x16384_1_0_0_1_n_n_wf : DotDims.WF S16384x32 S32x16384 S16384x16384 [1] [0] [0] [1] [] []

variable [Facts₀]

def dot_S16384x32_S32x16384_S16384x16384_1_0_0_1_n_n : DotDims S16384x32 S32x16384 S16384x16384 where
  lhsContracting := [1]
  rhsContracting := [0]
  lhsNonContracting := [0]
  rhsNonContracting := [1]
  lhsBatch := []
  rhsBatch := []
  wf := dot_S16384x32_S32x16384_S16384x16384_1_0_0_1_n_n_wf

class Facts : Prop extends Facts₀ where

variable [Facts]
-- ==== Proof.KdeSpec.lean ====
import Idealize.ShloMosaic.PureOps.Ideal
import Idealize.ShloMosaic.PureOps.Ideal.Laws
import Idealize.ShloMosaic.Lib.ValueIdx

/-!
# The Gaussian kernel-density score as one function of the two point sets

For row `r` of `X` and row `s` of `Y` (both 16384 × 32), write `⟨x_r, y_s⟩` for the inner product and
`|x_r|²` for the squared norm. The kernel adds, per pair, `⟨x_r, y_s⟩ + (-½)|x_r|² + (-½)|y_s|² - c`, exponentiates,
sums the columns block by block (16 blocks of 1024) and scales by `2⁻¹⁴`; the reference forms
`(-½)((|x_r|² + |y_s|²) - 2⟨x_r, y_s⟩) - c`, exponentiates, sums all 16384 columns and divides by `16384`.
On finite inputs the two exponents are the same real number (distributivity), a sum over 16384 columns is
the sum of its 16 block sums, and dividing by `2¹⁴` is multiplying by `2⁻¹⁴`.
-/

noncomputable section

namespace Cert.Kde

open Idealize.ShloMosaic Idealize.ShloMosaic.ValueIdx

/-- A 16384 × 32 array of extended reals. -/
abbrev Mat : Type := (⟨2, ![16384, 32]⟩ : Shape).Idx → EReal

/-- The constants both programs spell, as the extended reals their patterns denote. -/
abbrev cZero : EReal := Ideal.ofBits .f32 0x00000000#32
abbrev cHalfNeg : EReal := Ideal.ofBits .f32 0xBF000000#32
abbrev cTwo : EReal := Ideal.ofBits .f32 0x40000000#32
abbrev cNorm : EReal := Ideal.ofBits .f32 0x41EB3F8E#32
abbrev cInvN : EReal := Ideal.ofBits .f32 0x38800000#32
abbrev cN : EReal := Ideal.ofBits .f32 0x46800000#32

/-- The squared norm of row `r`, as both programs' host sums form it: the initial zero plus the sum. -/
def sqn (X : Mat) (r : Fin 16384) : EReal := cZero + ∑ k : Fin 32, X (ix2 r k) * X (ix2 r k)

/-- `(-½)|x_r|²`, the kernel's precomputed row and column terms. -/
def hsq (X : Mat) (r : Fin 16384) : EReal := cHalfNeg * sqn X r

/-- The inner product of row `r` of `X` with row `s` of `Y`. -/
def dotp (X Y : Mat) (r s : Fin 16384) : EReal := ∑ k : Fin 32, X (ix2 r k) * Y (ix2 s k)

/-- The kernel's summand for the pair `(r, s)`. -/
def kterm (X Y : Mat) (r s : Fin 16384) : EReal :=
  Ideal.exp (((dotp X Y r s + hsq X r) + hsq Y s) - cNorm)

/-- The reference's summand for the pair `(r, s)`. -/
def rterm (X Y : Mat) (r s : Fin 16384) : EReal :=
  Ideal.exp (cHalfNeg * ((sqn X r + sqn Y s) - cTwo * dotp X Y r s) - cNorm)

/-- Row (or column) `1024·b + o` of a 16384-row array, total in `b` and `o`. -/
def at16 (b o : ℕ) : Fin 16384 := ⟨(1024 * b + o) % 16384, Nat.mod_lt _ (by decide)⟩

/-- The sum of the kernel's summands over column block `J`. -/
def blockSum (X Y : Mat) (r : Fin 16384) (J : ℕ) : EReal := ∑ q : Fin 1024, kterm X Y r (at16 J q.val)

/-- The running sum after column blocks `0 … J`, from the zero the first block resets to. -/
def accVal (X Y : Mat) (r : Fin 16384) (J : ℕ) : EReal := cZero + ∑ J' ∈ Finset.range (J + 1), blockSum X Y r J'

/-! ### The constants as real numbers -/

theorem cZero_eq : cZero = 0 := Ideal.ofBits_zero_f32

theorem cHalfNeg_eq : cHalfNeg = ((-1 / 2 : ℝ) : EReal) := by
  simp [Ideal.ofBits, Ideal.ieee, -EReal.coe_mul]; norm_num

theorem cTwo_eq : cTwo = ((2 : ℝ) : EReal) := by
  simp [Ideal.ofBits, Ideal.ieee, -EReal.coe_mul]; norm_num

theorem cN_eq : cN = ((16384 : ℝ) : EReal) := by
  simp [Ideal.ofBits, Ideal.ieee, -EReal.coe_mul]; norm_num

theorem cInvN_eq : cInvN = ((1 / 16384 : ℝ) : EReal) := by
  simp [Ideal.ofBits, Ideal.ieee, -EReal.coe_mul]; norm_num

/-! ### Finite sums of real numbers inside the extended reals -/

/-- A finite sum of real numbers, each read as an extended real, is the real sum read as an extended real. -/
theorem coe_finset_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-! ### The two exponents are the same real number -/

/-- On real entries the squared norm is the real sum of squares. -/
theorem sqn_coe (X : Mat) (x : (⟨2, ![16384, 32]⟩ : Shape).Idx → ℝ) (hx : ∀ i, X i = (x i : EReal)) (r : Fin 16384) :
    sqn X r = ((∑ k : Fin 32, x (ix2 r k) * x (ix2 r k) : ℝ) : EReal) := by
  unfold sqn
  rw [cZero_eq, zero_add, ← coe_finset_sum]
  refine Finset.sum_congr rfl fun k _ => ?_
  rw [hx, EReal.coe_mul]

/-- On real entries the inner product is the real sum of products. -/
theorem dotp_coe (X Y : Mat) (x y : (⟨2, ![16384, 32]⟩ : Shape).Idx → ℝ) (hx : ∀ i, X i = (x i : EReal))
    (hy : ∀ i, Y i = (y i : EReal)) (r s : Fin 16384) :
    dotp X Y r s = ((∑ k : Fin 32, x (ix2 r k) * y (ix2 s k) : ℝ) : EReal) := by
  unfold dotp
  rw [← coe_finset_sum]
  refine Finset.sum_congr rfl fun k _ => ?_
  rw [hx, hy, EReal.coe_mul]

/-- Distributivity: `⟨x,y⟩ + (-½)|x|² + (-½)|y|² = (-½)((|x|² + |y|²) - 2⟨x,y⟩)` on real inputs, so the
    kernel's and the reference's summands agree. -/
theorem kterm_eq_rterm (X Y : Mat) (hX : ∀ i, ∃ x : ℝ, X i = (x : EReal)) (hY : ∀ i, ∃ y : ℝ, Y i = (y : EReal))
    (r s : Fin 16384) : kterm X Y r s = rterm X Y r s := by
  choose x hx using hX
  choose y hy using hY
  unfold kterm rterm hsq
  rw [sqn_coe X x hx r, sqn_coe Y y hy s, dotp_coe X Y x y hx hy r s, cHalfNeg_eq, cTwo_eq]
  congr 2
  rw [← EReal.coe_mul, ← EReal.coe_mul, ← EReal.coe_add, ← EReal.coe_add, ← EReal.coe_add, ← EReal.coe_mul,
    ← EReal.coe_sub, ← EReal.coe_mul]
  congr 1
  ring

/-! ### 16384 columns are 16 blocks of 1024 -/

/-- Column `1024·J + q` as the pair (block `J`, offset `q`). -/
def blockEquiv : Fin 16 × Fin 1024 ≃ Fin 16384 where
  toFun p := ⟨1024 * p.1.val + p.2.val, by have := p.1.isLt; have := p.2.isLt; omega⟩
  invFun j := (⟨j.val / 1024, by have := j.isLt; omega⟩, ⟨j.val % 1024, Nat.mod_lt _ (by decide)⟩)
  left_inv p := by
    obtain ⟨⟨J, hJ⟩, ⟨q, hq⟩⟩ := p
    refine Prod.ext (Fin.ext ?_) (Fin.ext ?_)
    · show (1024 * J + q) / 1024 = J
      omega
    · show (1024 * J + q) % 1024 = q
      omega
  right_inv j := by
    refine Fin.ext ?_
    show 1024 * (j.val / 1024) + j.val % 1024 = j.val
    omega

theorem at16_eq (J : Fin 16) (q : Fin 1024) : at16 J.val q.val = blockEquiv (J, q) := by
  refine Fin.ext ?_
  show (1024 * J.val + q.val) % 16384 = 1024 * J.val + q.val
  have := J.isLt
  have := q.isLt
  omega

/-- The running sum after all 16 blocks is the sum over all 16384 columns. -/
theorem accVal_last (X Y : Mat) (r : Fin 16384) : accVal X Y r 15 = ∑ j : Fin 16384, kterm X Y r j := by
  unfold accVal blockSum
  rw [cZero_eq, zero_add, Finset.sum_range, ← Equiv.sum_comp blockEquiv, Fintype.sum_prod_type]
  refine Finset.sum_congr rfl fun J _ => Finset.sum_congr rfl fun q _ => ?_
  rw [at16_eq]

theorem accVal_zero (X Y : Mat) (r : Fin 16384) : accVal X Y r 0 = cZero + blockSum X Y r 0 := by
  unfold accVal
  rw [Finset.sum_range_one]

theorem accVal_succ (X Y : Mat) (r : Fin 16384) (J : ℕ) :
    accVal X Y r (J + 1) = accVal X Y r J + blockSum X Y r (J + 1) := by
  unfold accVal
  rw [Finset.sum_range_succ, add_assoc]

/-- What the kernel leaves at row `r`: all 16 block sums, scaled. -/
def kernelVal (X Y : Mat) (r : Fin 16384) : EReal := accVal X Y r 15 * cInvN

/-- What the reference leaves at row `r`. -/
def refVal (X Y : Mat) (r : Fin 16384) : EReal := Ideal.div (cZero + ∑ j : Fin 16384, rterm X Y r j) cN

/-- On finite inputs the two are equal. -/
theorem kernelVal_eq_refVal (X Y : Mat) (hX : ∀ i, ∃ x : ℝ, X i = (x : EReal)) (hY : ∀ i, ∃ y : ℝ, Y i = (y : EReal))
    (r : Fin 16384) : kernelVal X Y r = refVal X Y r := by
  unfold kernelVal refVal
  rw [accVal_last, cZero_eq, zero_add, cN_eq, cInvN_eq, Ideal.div_coe (by norm_num : (16384 : ℝ) ≠ 0)]
  refine congrArg (fun z : EReal => z * ((1 / 16384 : ℝ) : EReal)) ?_
  exact Finset.sum_congr rfl fun j _ => kterm_eq_rterm X Y hX hY r j

end Cert.Kde

end
-- ==== Proof.KdeFinite.lean ====
import proofs.«114657_j82635170775443_1_alg».proof.Pre_finite_inputs
import proofs.«114657_j82635170775443_1_alg».proof.Proof.Gen.Pre_finite_inputs
import proofs.«114657_j82635170775443_1_alg».proof.Proof.KdeSpec
import Idealize.ShloMosaic.Lib.ReduceAll
import Idealize.ShloMosaic.Lib.ValueIdx

/-!
# Finite inputs are real numbers

The precondition says every entry of both arrays has absolute value below `+∞`; an extended real with that
property is a real number.
-/

noncomputable section

namespace Cert.Kde.Finite

open Idealize.ShloMosaic Idealize.ShloMosaic.ValueIdx Cert.Kde

/-- The rank-0 shape has exactly one index: there is no coordinate to differ in. -/
local instance subsingleton_scalar_idx : Subsingleton Cert.Pre_finite_inputs.S_.Idx :=
  ⟨fun a b => funext fun d => d.elim0⟩

/-- An extended real whose absolute value `max x (-x)` compares below `+∞` (the pattern `0x7F800000`)
is a real number: `⊥` and `⊤` both have absolute value `⊤`. -/
private theorem real_of_abs_lt_inf (x : Ideal FTy.f32)
    (e : FloatOps.cmpf CmpFPredicate.olt (FloatOps.hostAbsf x)
      (FloatOps.ofBits (F := Ideal) FTy.f32 2139095040#32) = 1#1) : ∃ r : ℝ, x = (r : EReal) := by
  have htop : Ideal.ofBits FTy.f32 2139095040#32 = (⊤ : EReal) := by simp [Ideal.ofBits, Ideal.ieee]
  have e' : Ideal.cmp CmpFPredicate.olt (max x (-x)) (⊤ : EReal) = 1#1 := by rw [← htop]; exact e
  have hlt : max x (-x) < (⊤ : EReal) := by
    by_contra hn
    have e'' : BitVec.ofBool (decide (max x (-x) < (⊤ : EReal))) = 1#1 := e'
    rw [decide_eq_false hn] at e''
    exact absurd e'' (by decide)
  induction x using EReal.rec with
  | bot => simp at hlt
  | top => simp at hlt
  | coe r => exact ⟨r, rfl⟩

theorem real_of_pre (X Y : Mat)
    (h : Cert.Pre_finite_inputs.fn (F := Ideal) X Y = fun _ => 1#1) :
    (∀ i, ∃ x : ℝ, X i = (x : EReal)) ∧ (∀ i, ∃ y : ℝ, Y i = (y : EReal)) := by
  have h0 := congrFun h ValueIdx.ix0
  dsimp only [Cert.Pre_finite_inputs.fn] at h0
  obtain ⟨hX, hY⟩ := IntOp.andi_eq_one.1 h0
  refine ⟨fun i => ?_, fun i => ?_⟩
  · have e := Host.reduce_andi_all _ _ _ _ _ hX i
    exact real_of_abs_lt_inf (X i) e
  · have e := Host.reduce_andi_all _ _ _ _ _ hY i
    exact real_of_abs_lt_inf (Y i) e

end Cert.Kde.Finite

end
-- ==== Proof.RefValue.lean ====
import proofs.«114657_j82635170775443_1_alg».proof.Proof.Gen.ReferenceIdeal.Read
import proofs.«114657_j82635170775443_1_alg».proof.Proof.KdeSpec
import Idealize.ShloMosaic.Lib.ValueIdx
import Idealize.ShloMosaic.PureOps.Ideal.Laws

/-!
# The reference's result, row by row

Reading the host program one operation at a time: row `r` of the result is the sum over all 16384 columns `s` of
`exp ((-½)((|x_r|² + |y_s|²) - 2⟨x_r, y_s⟩) - c)`, from the initial zero, divided by 16384 (the transpose of `Y`
turns the matrix product's second operand back into rows of `Y`).
-/

noncomputable section

namespace Cert.ReferenceIdeal.RefValue

open Idealize.ShloMosaic Idealize.ShloMosaic.ValueIdx Cert.ReferenceIdeal Cert.ReferenceIdeal.Read Cert.Kde

/-! ## The index functions of the layout operations, at coordinates -/

/-- Row `r` of a 16384 × 32 array, entry `k`: the index the row sum of the squares of `X` reads. -/
theorem idx_v1 (r : Fin 16384) (k : Fin 32) : idx_main_v1 (ix1 r) k = ix2 r k :=
  funext fun a => Fin.ext (by match a with | ⟨0, _⟩ => rfl | ⟨1, _⟩ => rfl)

/-- The same for the row sum of the squares of `Y`. -/
theorem idx_v4 (s : Fin 16384) (k : Fin 32) : idx_main_v4 (ix1 s) k = ix2 s k :=
  funext fun a => Fin.ext (by match a with | ⟨0, _⟩ => rfl | ⟨1, _⟩ => rfl)

/-- Broadcasting a column vector along the rows: entry `(r, s)` reads row `r`. -/
theorem idx_v2_v6 (r s : Fin 16384) : idx_main_v2 (idx_main_v6 (ix2 r s)) = ix1 r :=
  funext fun a => Fin.ext (by match a with | ⟨0, _⟩ => rfl)

/-- Broadcasting a row vector along the columns: entry `(r, s)` reads column `s`. -/
theorem idx_v5_v7 (r s : Fin 16384) : idx_main_v5 (idx_main_v7 (ix2 r s)) = ix1 s :=
  funext fun a => Fin.ext (by match a with | ⟨0, _⟩ => rfl)

/-- The matrix product's left operand at `(r, s)`, contraction position `k`, is entry `(r, k)`. -/
theorem lidx_v10 (r s : Fin 16384) (k : Fin 32) : lidx_main_v10 (ix2 r s) k = ix2 r k :=
  funext fun a => Fin.ext (by match a with | ⟨0, _⟩ => rfl | ⟨1, _⟩ => rfl)

/-- The right operand is the transpose of `Y`, so position `k` of column `s` is entry `(s, k)` of `Y`. -/
theorem idx_v9_ridx_v10 (r s : Fin 16384) (k : Fin 32) : idx_main_v9 (ridx_main_v10 (ix2 r s) k) = ix2 s k :=
  funext fun a => Fin.ext (by match a with | ⟨0, _⟩ => rfl | ⟨1, _⟩ => rfl)

/-- Entry `s` of the sum along row `r` of a 16384 × 16384 array. -/
theorem idx_v19 (r s : Fin 16384) : idx_main_v19 (ix1 r) s = ix2 r s :=
  funext fun a => Fin.ext (by match a with | ⟨0, _⟩ => rfl | ⟨1, _⟩ => rfl)

/-! ## The stages -/

/-- The squared norm of row `r` of `X`. -/
theorem v1_apply (X : Mat) (r : Fin 16384) : val_main_v1 (F := Ideal) X (ix1 r) = sqn X r := by
  refine (val_main_v1_apply X (ix1 r)).trans ?_
  unfold sqn
  refine congrArg₂ (· + ·) rfl (Finset.sum_congr rfl fun k _ => ?_)
  refine (val_main_v0_apply (F := Ideal) X _).trans ?_
  rw [idx_v1]
  rfl

/-- The squared norm of row `s` of `Y`. -/
theorem v4_apply (Y : Mat) (s : Fin 16384) : val_main_v4 (F := Ideal) Y (ix1 s) = sqn Y s := by
  refine (val_main_v4_apply Y (ix1 s)).trans ?_
  unfold sqn
  refine congrArg₂ (· + ·) rfl (Finset.sum_congr rfl fun k _ => ?_)
  refine (val_main_v3_apply (F := Ideal) Y _).trans ?_
  rw [idx_v4]
  rfl

/-- The row norms, broadcast over the pairs. -/
theorem v6_apply (X : Mat) (r s : Fin 16384) : val_main_v6 (F := Ideal) X (ix2 r s) = sqn X r := by
  refine (val_main_v6_apply (F := Ideal) X _).trans ?_
  refine (val_main_v2_apply (F := Ideal) X _).trans ?_
  rw [idx_v2_v6]
  exact v1_apply X r

/-- The column norms, broadcast over the pairs. -/
theorem v7_apply (Y : Mat) (r s : Fin 16384) : val_main_v7 (F := Ideal) Y (ix2 r s) = sqn Y s := by
  refine (val_main_v7_apply (F := Ideal) Y _).trans ?_
  refine (val_main_v5_apply (F := Ideal) Y _).trans ?_
  rw [idx_v5_v7]
  exact v4_apply Y s

/-- The matrix product against the transpose is the inner product of the two rows. -/
theorem v10_apply (X Y : Mat) (r s : Fin 16384) : val_main_v10 (F := Ideal) X Y (ix2 r s) = dotp X Y r s := by
  refine (val_main_v10_apply X Y _).trans ?_
  unfold dotp
  refine Finset.sum_congr rfl fun k _ => ?_
  rw [val_main_v9_apply, lidx_v10, idx_v9_ridx_v10]

/-- The exponent at the pair `(r, s)`. -/
theorem v17_apply (X Y : Mat) (r s : Fin 16384) :
    val_main_v17 (F := Ideal) X Y (ix2 r s)
      = cHalfNeg * ((sqn X r + sqn Y s) - cTwo * dotp X Y r s) - cNorm := by
  rw [val_main_v17_apply, val_main_v15_apply, val_main_v13_apply, val_main_v8_apply, val_main_v12_apply,
    val_main_v14_apply, val_main_v16_apply, val_main_v11_apply, val_main_cst_1_apply, val_main_cst_2_apply,
    val_main_cst_3_apply, v6_apply, v7_apply, v10_apply]
  rfl

/-- The summand at the pair `(r, s)`. -/
theorem v18_apply (X Y : Mat) (r s : Fin 16384) : val_main_v18 (F := Ideal) X Y (ix2 r s) = rterm X Y r s := by
  rw [val_main_v18_apply, v17_apply]
  rfl

/-- The sum over all columns, from the initial zero. -/
theorem v19_apply (X Y : Mat) (r : Fin 16384) :
    val_main_v19 (F := Ideal) X Y (ix1 r) = cZero + ∑ j : Fin 16384, rterm X Y r j := by
  refine (val_main_v19_apply X Y (ix1 r)).trans ?_
  refine congrArg₂ (· + ·) rfl (Finset.sum_congr rfl fun j _ => ?_)
  rw [idx_v19]
  exact v18_apply X Y r j

theorem ref_apply (X Y : Mat) (r : Fin 16384) :
    val_main_v21 (F := Ideal) X Y (ix1 r) = refVal X Y r := by
  rw [val_main_v21_apply, v19_apply, val_main_v20_apply, val_main_cst_5_apply]
  rfl

end Cert.ReferenceIdeal.RefValue

end
-- ==== Proof.KdePieces.lean ====
import proofs.«114657_j82635170775443_1_alg».proof.Proof.Gen.KernelIdeal.Frame
import Idealize.ShloMosaic.Lib.Pipeline.Value
import Idealize.ShloMosaic.Lib.Tactic

/-!
# What each case of the body leaves in the output column

The body has three cases by column block. In the first block it stores zero, reads it back and stores the
accumulation over zero; in a middle block it stores the accumulation over what the block before left; in the last
block it stores that accumulation, reads it back and stores it scaled. Every store and load covers the whole
1024 × 1 column, so the column ends at the last store's value, and a load after a store reads that store's value.
-/

noncomputable section

namespace Cert.KernelIdeal.Pieces

open Idealize.ShloMosaic Idealize.ShloMosaic.TcCoe Idealize.SL.Sem
open Cert.KernelIdeal Cert.KernelIdeal.Gen

variable {F : FTy → Type} [FloatOps F]

/-- The zero offsets, however spelt. -/
theorem hz : (![0, 0] : Fin 2 → Nat) = fun _ => 0 := funext fun a => by fin_cases a <;> rfl

/-- A middle column block: the accumulation over the column as found. -/
theorem out_B (c : Dev nD) (i : grid0.Coords) (arg2 : Memref sig .tc .vmem S1024x32 .f32) (harg2 : arg2.IsWhole) (arg3 : Memref sig .tc .vmem S1024x32 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (hc0 : ¬cond0_0 i) (hc1 : ¬cond0_1 i)
    (x0 : Vec F S1024x32 .f32) (x1 : Vec F S1024x32 .f32) (x2 : Vec F S1024x1 .f32) (x3 : Vec F S1x1024 .f32) (xo : Vec F S1024x1 .f32) :
    out0_B_4 c i arg2 harg2 arg3 harg3 arg4 harg4 arg5 harg5 arg6 harg6 hc0 hc1 x0 x1 x2 x3 xo = k0_pay2 x0 x1 x2 x3 xo := by
  unfold out0_B_4
  rw [View.read_writes_eq_canon _ _ _ (cover0_B_4 c i arg2 harg2 arg3 harg3 arg4 harg4 arg5 harg5 arg6 harg6 hc0 hc1 x0 x1 x2 x3 xo)]
  unfold kernelRun0_B
  dsimp only
  rw [View.canon_unit_zero hz]
  simp only [View.readAt_eq_ld, harg2.read_unread, harg3.read_unread, harg4.read_unread, harg5.read_unread, harg6.read_unread, View.ld_unit_zero (S := S1024x32) hz, View.ld_unit_zero (S := S1024x1) hz, View.ld_unit_zero (S := S1x1024) hz]

/-- The first column block: the accumulation over the zero column just stored. -/
theorem out_A (c : Dev nD) (i : grid0.Coords) (arg2 : Memref sig .tc .vmem S1024x32 .f32) (harg2 : arg2.IsWhole) (arg3 : Memref sig .tc .vmem S1024x32 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (hc0 : cond0_0 i) (hc1 : ¬cond0_1 i)
    (x0 : Vec F S1024x32 .f32) (x1 : Vec F S1024x32 .f32) (x2 : Vec F S1024x1 .f32) (x3 : Vec F S1x1024 .f32) :
    out0_A_4 c i arg2 harg2 arg3 harg3 arg4 harg4 arg5 harg5 arg6 harg6 hc0 hc1 x0 x1 x2 x3 = k0_pay2 x0 x1 x2 x3 (k0_pay1 (F := F)) := by
  unfold out0_A_4
  rw [View.read_writes_eq_canon _ _ _ (cover0_A_4 c i arg2 harg2 arg3 harg3 arg4 harg4 arg5 harg5 arg6 harg6 hc0 hc1 x0 x1 x2 x3)]
  unfold kernelRun0_A
  dsimp only
  sl_unfold_words
  rw [View.canon_cons_unit_zero (S := S1024x1) hz]
  simp only [View.readAt_eq_ld, harg2.read_unread, harg3.read_unread, harg4.read_unread, harg5.read_unread, harg6.read_unread, View.ld_unit_zero (S := S1024x32) hz, View.ld_unit_zero (S := S1024x1) hz, View.ld_unit_zero (S := S1x1024) hz, View.readCov_unit_zero (S := S1024x1) _ hz]

/-- The last column block: the accumulation over the column as found, then scaled. -/
theorem out_C (c : Dev nD) (i : grid0.Coords) (arg2 : Memref sig .tc .vmem S1024x32 .f32) (harg2 : arg2.IsWhole) (arg3 : Memref sig .tc .vmem S1024x32 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (hc0 : ¬cond0_0 i) (hc1 : cond0_1 i)
    (x0 : Vec F S1024x32 .f32) (x1 : Vec F S1024x32 .f32) (x2 : Vec F S1024x1 .f32) (x3 : Vec F S1x1024 .f32) (xo : Vec F S1024x1 .f32) :
    out0_C_4 c i arg2 harg2 arg3 harg3 arg4 harg4 arg5 harg5 arg6 harg6 hc0 hc1 x0 x1 x2 x3 xo = k0_pay3 (k0_pay2 x0 x1 x2 x3 xo) := by
  unfold out0_C_4
  rw [View.read_writes_eq_canon _ _ _ (cover0_C_4 c i arg2 harg2 arg3 harg3 arg4 harg4 arg5 harg5 arg6 harg6 hc0 hc1 x0 x1 x2 x3 xo)]
  unfold kernelRun0_C
  dsimp only
  sl_unfold_words
  rw [View.canon_cons_unit_zero (S := S1024x1) hz]
  simp only [View.readAt_eq_ld, harg2.read_unread, harg3.read_unread, harg4.read_unread, harg5.read_unread, harg6.read_unread, View.ld_unit_zero (S := S1024x32) hz, View.ld_unit_zero (S := S1024x1) hz, View.ld_unit_zero (S := S1x1024) hz, View.readCov_unit_zero (S := S1024x1) _ hz]

end Cert.KernelIdeal.Pieces

end
-- ==== Proof.KdePayload.lean ====
import proofs.«114657_j82635170775443_1_alg».proof.Proof.Gen.KernelIdeal.Skeleton
import proofs.«114657_j82635170775443_1_alg».proof.Proof.KdeSpec
import Idealize.ShloMosaic.Lib.Pipeline.Value
import Idealize.ShloMosaic.Lib.ValueIdx
import Idealize.ShloMosaic.Lib.ValueLayout
import Idealize.ShloMosaic.PureOps.Ideal.Laws

/-!
# The body's three stored values, read at a row

The output block is a 1024 × 1 column. The reset stores zero; the accumulation stores the column read back plus,
per row `p`, the sum over the block's 1024 columns `q` of `exp (⟨x_p, y_q⟩ + a_p + b_q - c)` (a matrix product
into a zero accumulator, a column and a row broadcast over the tile, a lane sum); the last column block stores the
column read back times `2⁻¹⁴`.
-/

noncomputable section

namespace Cert.KernelIdeal.Pay

open Idealize.ShloMosaic Idealize.ShloMosaic.ValueIdx Cert.KernelIdeal Cert.KernelIdeal.Gen Cert.Kde

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the columns of a 1024 × 1024 tile, read at row `p`. -/
theorem laneSum_apply (src : FVec Ideal S1024x1024 .f32) (p : Fin 1024) :
    multiReduction (F := Ideal) .add [1] S1024 src 0x00000000#32 reduces_S1024x1024_S1024 (.inl rfl) rfl (ix1 p)
      = ∑ q : Fin 1024, src (ix2 p q) := by
  refine (Ideal.multiReduction_add_single src 0x00000000#32 reduces_S1024x1024_S1024 _ _ (ix1 p)).trans ?_
  refine Finset.sum_congr rfl fun q _ => congrArg src ?_
  funext d
  match d with
  | ⟨0, _⟩ => rfl
  | ⟨1, _⟩ => rfl

/-! The product's operand indices: both operands contract their axis 1, so at the output `(p, q)` and the contraction
position `k` the left operand is read at `(p, k)` and the right at `(q, k)`. -/

theorem lhs_dot_0 (i : S1024x1024.Idx) (q : dot_S1024x32_S1024x32_S1024x1024_1_1_0_0_n_n.contr.Idx) :
    (dot_S1024x32_S1024x32_S1024x1024_1_1_0_0_n_n.lhsIdx i q 0).val = (i 0).val := by
  unfold DotDims.lhsIdx
  rw [dif_neg (show ¬(0 : Fin S1024x32.rank) ∈ dot_S1024x32_S1024x32_S1024x1024_1_1_0_0_n_n.lhsBatch by decide), dif_pos (show (0 : Fin S1024x32.rank) ∈ dot_S1024x32_S1024x32_S1024x1024_1_1_0_0_n_n.lhsNonContracting by decide)]
  rfl
theorem lhs_dot_1 (i : S1024x1024.Idx) (q : dot_S1024x32_S1024x32_S1024x1024_1_1_0_0_n_n.contr.Idx) :
    (dot_S1024x32_S1024x32_S1024x1024_1_1_0_0_n_n.lhsIdx i q 1).val = (q ⟨0, by decide⟩).val :=
  dot_S1024x32_S1024x32_S1024x1024_1_1_0_0_n_n.lhsIdx_val_of_single rfl i q
theorem rhs_dot_0 (i : S1024x1024.Idx) (q : dot_S1024x32_S1024x32_S1024x1024_1_1_0_0_n_n.contr.Idx) :
    (dot_S1024x32_S1024x32_S1024x1024_1_1_0_0_n_n.rhsIdx i q 0).val = (i 1).val := by
  unfold DotDims.rhsIdx
  rw [dif_neg (show ¬(0 : Fin S1024x32.rank) ∈ dot_S1024x32_S1024x32_S1024x1024_1_1_0_0_n_n.rhsBatch by decide), dif_pos (show (0 : Fin S1024x32.rank) ∈ dot_S1024x32_S1024x32_S1024x1024_1_1_0_0_n_n.rhsNonContracting by decide)]
  rfl
theorem rhs_dot_1 (i : S1024x1024.Idx) (q : dot_S1024x32_S1024x32_S1024x1024_1_1_0_0_n_n.contr.Idx) :
    (dot_S1024x32_S1024x32_S1024x1024_1_1_0_0_n_n.rhsIdx i q 1).val = (q ⟨0, by decide⟩).val :=
  dot_S1024x32_S1024x32_S1024x1024_1_1_0_0_n_n.rhsIdx_val_of_single rfl i q

/-- The matrix product into the zero accumulator, read at `(p, q)`: the inner product of row `p` of the left operand with
row `q` of the right. -/
theorem matmul_zero_apply {φ₁ φ₂ : FTy} (l : FVec Ideal S1024x32 φ₁) (r : FVec Ideal S1024x32 φ₂) (p q : Fin 1024) :
    matmul (F := Ideal) dot_S1024x32_S1024x32_S1024x1024_1_1_0_0_n_n none l r (constant (F := Ideal) S1024x1024 .f32 0x00000000#32) (ix2 p q)
      = ∑ k : Fin 32, l (ix2 p k) * r (ix2 q k) := by
  simp only [matmul]
  rw [Ideal.matmul_constant_zero_apply, ← Equiv.sum_comp (ValueIdx.contrEquiv1 dot_S1024x32_S1024x32_S1024x1024_1_1_0_0_n_n 32 rfl rfl).symm]
  refine Finset.sum_congr rfl fun k _ => ?_
  have hk := ValueIdx.contrEquiv1_symm_val dot_S1024x32_S1024x32_S1024x1024_1_1_0_0_n_n 32 rfl rfl k
  have el : dot_S1024x32_S1024x32_S1024x1024_1_1_0_0_n_n.lhsIdx (ix2 p q) ((ValueIdx.contrEquiv1 dot_S1024x32_S1024x32_S1024x1024_1_1_0_0_n_n 32 rfl rfl).symm k) = ix2 p k := funext fun a => Fin.ext (by
    match a with
    | ⟨0, _⟩ => exact lhs_dot_0 _ _
    | ⟨1, _⟩ => exact (lhs_dot_1 _ _).trans hk)
  have er : dot_S1024x32_S1024x32_S1024x1024_1_1_0_0_n_n.rhsIdx (ix2 p q) ((ValueIdx.contrEquiv1 dot_S1024x32_S1024x32_S1024x1024_1_1_0_0_n_n 32 rfl rfl).symm k) = ix2 q k := funext fun a => Fin.ext (by
    match a with
    | ⟨0, _⟩ => exact rhs_dot_0 _ _
    | ⟨1, _⟩ => exact (rhs_dot_1 _ _).trans hk)
  rw [el, er]

/-! The three stored values. -/

theorem pay1_apply (p : Fin 1024) : (k0_pay1 (F := Ideal)) (ix2 p (0 : Fin 1)) = cZero := by
  rfl

theorem pay2_apply (x0 x1 : Vec Ideal S1024x32 .f32) (x2 : Vec Ideal S1024x1 .f32) (x3 : Vec Ideal S1x1024 .f32)
    (xo : Vec Ideal S1024x1 .f32) (p : Fin 1024) :
    k0_pay2 (F := Ideal) x0 x1 x2 x3 xo (ix2 p (0 : Fin 1))
      = xo (ix2 p (0 : Fin 1)) + ∑ q : Fin 1024,
          Ideal.exp ((((∑ k : Fin 32, x0 (ix2 p k) * x1 (ix2 q k)) + x2 (ix2 p (0 : Fin 1))) + x3 (ix2 (0 : Fin 1) q)) - cNorm) := by
  unfold k0_pay2
  -- the three same-shape casts are the identity; the outer sum is pointwise
  rw [addf_apply, shapeCast_self, shapeCast_self, shapeCast_self]
  refine congrArg (xo (ix2 p (0 : Fin 1)) + ·) ?_
  -- the column cast of the lane sum at row `p` is the sum over the tile's columns
  refine (shapeCast_a_a1_apply _ shapeCasts_S1024_S1024x1 p (0 : Fin 1)).trans ?_
  refine (laneSum_apply _ p).trans ?_
  refine Finset.sum_congr rfl fun q _ => ?_
  -- the exponential is pointwise; its argument at `(p, q)` is product + column term + row term - constant
  show Ideal.exp _ = _
  refine congrArg Ideal.exp ?_
  rw [subf_apply, addf_apply, addf_apply, matmul_zero_apply, broadcastTo_a1_ab_apply, broadcastTo_1b_ab_apply]
  rfl

theorem pay3_apply (v : Vec Ideal S1024x1 .f32) (p : Fin 1024) :
    k0_pay3 (F := Ideal) v (ix2 p (0 : Fin 1)) = v (ix2 p (0 : Fin 1)) * cInvN := by
  unfold k0_pay3
  rw [shapeCast_self]
  rfl

end Cert.KernelIdeal.Pay

end
-- ==== Proof.KdeBlocks.lean ====
import proofs.«114657_j82635170775443_1_alg».proof.Proof.Gen.KernelIdeal.Frame
import proofs.«114657_j82635170775443_1_alg».proof.Proof.KdeSpec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

/-!
# The four input blocks at a grid point

Grid point `t` of the 16 × 16 grid is row block `t / 16` and column block `t % 16`. The first window's block is rows
`1024·(t/16) …` of `X`; the second's rows `1024·(t%16) …` of `Y`; the third's is the same rows of the column
`(-½)|x_r|²` the host computed before the call; the fourth's is columns `1024·(t%16) …` of the row `(-½)|y_s|²`
(the host's column, reshaped to a row).
-/

noncomputable section

namespace Cert.KernelIdeal.Blocks

open Idealize.ShloMosaic Idealize.ShloMosaic.TcCoe Idealize.ShloMosaic.ValueIdx Idealize.SL.Sem
open Cert.KernelIdeal Cert.KernelIdeal.Gen Cert.Kde

variable (m : (ℓ : Loc nD τ sig) → Buf (Elt Ideal) ℓ)

/-- The two argument arrays as launched. -/
abbrev Xarr (c : Dev nD) : Mat := m ((c : Thread nD τ).loc main_arg0)
abbrev Yarr (c : Dev nD) : Mat := m ((c : Thread nD τ).loc main_arg1)

/-- The four input blocks at a point, at their literal types. -/
abbrev xblk (c : Dev nD) (t : Fin cfg0.N) : Vec Ideal S1024x32 .f32 := iblk m c 0 t
abbrev yblk (c : Dev nD) (t : Fin cfg0.N) : Vec Ideal S1024x32 .f32 := iblk m c 1 t
abbrev ablk (c : Dev nD) (t : Fin cfg0.N) : Vec Ideal S1024x1 .f32 := iblk m c 2 t
abbrev bblk (c : Dev nD) (t : Fin cfg0.N) : Vec Ideal S1x1024 .f32 := iblk m c 3 t

/-- The block coordinates of the four windows at a grid point, decided once over the grid. -/
theorem idx_facts : ∀ t : Fin cfg0.N,
    (win0_0.index t 0 = t.val / 16 ∧ win0_0.index t 1 = 0)
    ∧ (win0_1.index t 0 = t.val % 16 ∧ win0_1.index t 1 = 0)
    ∧ (win0_2.index t 0 = t.val / 16 ∧ win0_2.index t 1 = 0)
    ∧ (win0_3.index t 0 = 0 ∧ win0_3.index t 1 = t.val % 16) :=
  (by decide +kernel : ∀ t : Fin grid0.N,
    (win0_0.index t 0 = t.val / 16 ∧ win0_0.index t 1 = 0)
    ∧ (win0_1.index t 0 = t.val % 16 ∧ win0_1.index t 1 = 0)
    ∧ (win0_2.index t 0 = t.val / 16 ∧ win0_2.index t 1 = 0)
    ∧ (win0_3.index t 0 = 0 ∧ win0_3.index t 1 = t.val % 16))

theorem xblk_apply (c : Dev nD) (t : Fin cfg0.N) (p : Fin 1024) (k : Fin 32) :
    xblk m c t (ix2 p k) = Xarr m c (ix2 (at16 (t.val / 16) p.val) k) := by
  have hi := (idx_facts t).1
  have ht : t.val < 256 := lt_of_lt_of_eq t.isLt N_0
  show iblk m c 0 t (ix2 p k) = _
  unfold iblk
  rw [View.read_apply]
  show V m c main_arg0 _ = _
  refine (congrFun (V_main_arg0 m c) _).trans ?_
  refine congrArg _ (funext fun a => Fin.ext ?_)
  match a with
  | ⟨0, _⟩ =>
    show win0_0.index t 0 * 1024 + 1 * p.val = (1024 * (t.val / 16) + p.val) % 16384
    rw [hi.1]; omega
  | ⟨1, _⟩ =>
    show win0_0.index t 1 * 32 + 1 * k.val = k.val
    rw [hi.2]; omega

theorem yblk_apply (c : Dev nD) (t : Fin cfg0.N) (q : Fin 1024) (k : Fin 32) :
    yblk m c t (ix2 q k) = Yarr m c (ix2 (at16 (t.val % 16) q.val) k) := by
  have hi := (idx_facts t).2.1
  have ht : t.val < 256 := lt_of_lt_of_eq t.isLt N_0
  show iblk m c 1 t (ix2 q k) = _
  unfold iblk
  rw [View.read_apply]
  show V m c main_arg1 _ = _
  refine (congrFun (V_main_arg1 m c) _).trans ?_
  refine congrArg _ (funext fun a => Fin.ext ?_)
  match a with
  | ⟨0, _⟩ =>
    show win0_1.index t 0 * 1024 + 1 * q.val = (1024 * (t.val % 16) + q.val) % 16384
    rw [hi.1]; omega
  | ⟨1, _⟩ =>
    show win0_1.index t 1 * 32 + 1 * k.val = k.val
    rw [hi.2]; omega

/-- The host's column read at a row: the constant `-½` (broadcast) times the row's zero-initialised sum of squares
    (broadcast along the unit axis). -/
theorem hostCol_apply (X : Mat) (r : Fin 16384) :
    (mulf (broadcastInDim S16384x1 ![] bcast_S_S16384x1 (constant (F := Ideal) S_ .f32 0xBF000000#32))
          (broadcastInDim S16384x1 ![0] bcast_S16384_S16384x1_0
            (Host.reduceAdd (F := Ideal) (mulf X X) (constant (F := Ideal) S_ .f32 0x00000000#32)
              reducesTo_S16384x32_S16384_d1 h_S_)) : S16384x1.Idx → EReal) (ix2 r (0 : Fin 1)) = hsq X r := by
  unfold hsq sqn
  show (broadcastInDim S16384x1 ![] bcast_S_S16384x1 (constant (F := Ideal) S_ .f32 0xBF000000#32) (ix2 r (0 : Fin 1)) : EReal)
      * (broadcastInDim S16384x1 ![0] bcast_S16384_S16384x1_0
            (Host.reduceAdd (F := Ideal) (mulf X X) (constant (F := Ideal) S_ .f32 0x00000000#32)
              reducesTo_S16384x32_S16384_d1 h_S_) (ix2 r (0 : Fin 1)) : EReal) = _
  rw [broadcastInDim_apply _ bcast_S_S16384x1 _ (ix2 r (0 : Fin 1)) (fun a => a.elim0) (fun a => a.elim0),
    broadcastInDim_apply _ bcast_S16384_S16384x1_0 _ (ix2 r (0 : Fin 1)) (ix1 r) (fun a => match a with
      | ⟨0, _⟩ => by show r.val = if (16384 : Nat) = 1 then 0 else r.val; rw [if_neg (by decide)])]
  refine congrArg (_ * ·) ?_
  have hsum : ∀ y0 : Mat, (Host.reduceAdd (F := Ideal) y0 (constant (F := Ideal) S_ .f32 0x00000000#32)
      reducesTo_S16384x32_S16384_d1 h_S_ : S16384.Idx → EReal) (ix1 r) = cZero + ∑ k : Fin 32, y0 (ix2 r k) := by
    intro y0
    simp only [Host.reduceAdd, Ideal.hostReduceAdd_def]
    rw [Ideal.hostReduceAdd_single reducesTo_S16384x32_S16384_d1 (by decide)]
    refine congrArg₂ (· + ·) rfl (Finset.sum_congr rfl fun k _ => ?_)
    exact congrArg y0 (funext fun a => Fin.ext (by match a with | ⟨0, _⟩ => rfl | ⟨1, _⟩ => rfl))
  exact hsum (mulf (F := Ideal) X X)

/-- What the host left in the column `(-½)|x_r|²` before the call, as one term of the launched `X`. -/
theorem V_v4_eq (c : Dev nD) :
    (V m c main_v4 : S16384x1.Idx → EReal)
      = mulf (broadcastInDim S16384x1 ![] bcast_S_S16384x1 (constant (F := Ideal) S_ .f32 0xBF000000#32))
          (broadcastInDim S16384x1 ![0] bcast_S16384_S16384x1_0
            (Host.reduceAdd (F := Ideal) (mulf (Xarr m c) (Xarr m c)) (constant (F := Ideal) S_ .f32 0x00000000#32)
              reducesTo_S16384x32_S16384_d1 h_S_)) := by
  show StableHlo.after hostOps0 (fun b => m (c, b)) (Proc.devRef .tc main_v4) = _
  after_results

/-- The host's column at a row is `(-½)|x_r|²`. -/
theorem V_v4_apply (c : Dev nD) (r : Fin 16384) :
    V m c main_v4 (ix2 r (0 : Fin 1)) = hsq (Xarr m c) r :=
  (congrFun (V_v4_eq m c) _).trans (hostCol_apply (Xarr m c) r)

/-- What the host left in the row `(-½)|y_s|²` before the call: the same column over `Y`, reshaped to a row. -/
theorem V_v10_eq (c : Dev nD) :
    (V m c main_v10 : S1x16384.Idx → EReal)
      = shapeCast S1x16384
          (mulf (broadcastInDim S16384x1 ![] bcast_S_S16384x1 (constant (F := Ideal) S_ .f32 0xBF000000#32))
            (broadcastInDim S16384x1 ![0] bcast_S16384_S16384x1_0
              (Host.reduceAdd (F := Ideal) (mulf (Yarr m c) (Yarr m c)) (constant (F := Ideal) S_ .f32 0x00000000#32)
                reducesTo_S16384x32_S16384_d1 h_S_))) shapeCasts_S16384x1_S1x16384 := by
  show StableHlo.after hostOps0 (fun b => m (c, b)) (Proc.devRef .tc main_v10) = _
  after_results
  rfl

/-- The host's row at a column is `(-½)|y_s|²`: the reshape keeps the row-major position. -/
theorem V_v10_apply (c : Dev nD) (r : Fin 16384) :
    V m c main_v10 (ix2 (0 : Fin 1) r) = hsq (Yarr m c) r := by
  refine (congrFun (V_v10_eq m c) _).trans ?_
  refine (shapeCast_apply _ shapeCasts_S16384x1_S1x16384 (ix2 (0 : Fin 1) r) (ix2 r (0 : Fin 1)) ?_).trans
    (hostCol_apply (Yarr m c) r)
  rw [Shape.rowMajor_val_two, Shape.rowMajor_val_two]
  show r.val * 1 + 0 = 0 * 16384 + r.val
  omega

theorem ablk_apply (c : Dev nD) (t : Fin cfg0.N) (p : Fin 1024) :
    ablk m c t (ix2 p (0 : Fin 1)) = hsq (Xarr m c) (at16 (t.val / 16) p.val) := by
  have hi := (idx_facts t).2.2.1
  have ht : t.val < 256 := lt_of_lt_of_eq t.isLt N_0
  refine Eq.trans ?_ (V_v4_apply m c (at16 (t.val / 16) p.val))
  show iblk m c 2 t (ix2 p (0 : Fin 1)) = _
  unfold iblk
  rw [View.read_apply]
  show V m c main_v4 _ = V m c main_v4 _
  refine congrArg _ (funext fun a => Fin.ext ?_)
  match a with
  | ⟨0, _⟩ =>
    show win0_2.index t 0 * 1024 + 1 * p.val = (1024 * (t.val / 16) + p.val) % 16384
    rw [hi.1]; omega
  | ⟨1, _⟩ =>
    show win0_2.index t 1 * 1 + 1 * 0 = 0
    rw [hi.2]

theorem bblk_apply (c : Dev nD) (t : Fin cfg0.N) (q : Fin 1024) :
    bblk m c t (ix2 (0 : Fin 1) q) = hsq (Yarr m c) (at16 (t.val % 16) q.val) := by
  have hi := (idx_facts t).2.2.2
  have ht : t.val < 256 := lt_of_lt_of_eq t.isLt N_0
  refine Eq.trans ?_ (V_v10_apply m c (at16 (t.val % 16) q.val))
  show iblk m c 3 t (ix2 (0 : Fin 1) q) = _
  unfold iblk
  rw [View.read_apply]
  show V m c main_v10 _ = V m c main_v10 _
  refine congrArg _ (funext fun a => Fin.ext ?_)
  match a with
  | ⟨0, _⟩ =>
    show win0_3.index t 0 * 1 + 1 * 0 = 0
    rw [hi.1]
  | ⟨1, _⟩ =>
    show win0_3.index t 1 * 1024 + 1 * q.val = (1024 * (t.val % 16) + q.val) % 16384
    rw [hi.2]; omega

end Cert.KernelIdeal.Blocks

end
-- ==== Proof.KdeValue.lean ====
import proofs.«114657_j82635170775443_1_alg».proof.Proof.Gen.KernelIdeal.Frame
import proofs.«114657_j82635170775443_1_alg».proof.Proof.KdeSpec
import proofs.«114657_j82635170775443_1_alg».proof.Proof.KdePieces
import proofs.«114657_j82635170775443_1_alg».proof.Proof.KdePayload
import proofs.«114657_j82635170775443_1_alg».proof.Proof.KdeBlocks
import Idealize.ShloMosaic.Lib.Pipeline.Value
import Idealize.ShloMosaic.Lib.StableHlo.Run
import Idealize.ShloMosaic.Lib.ValueIdx
import Idealize.ShloMosaic.Lib.ValueLayout

/-!
# The kernel's result array

The 16 × 16 grid runs row block by row block; within a row block the 16 column blocks are consecutive points, and
the output column of that row block stays in its buffer across them and is written back after the last. So after
column block `J` of row block `I` the buffer holds, at row `p`, the running sum of the block sums `0 … J` for row
`1024·I + p` (from the zero the first block resets to), and after the last block that sum scaled by `2⁻¹⁴`: by
induction on the point, one step per column block. The sixteen write-backs tile the 16384 × 1 result, which the host
then reshapes to a vector.
-/

noncomputable section

namespace Cert.KernelIdeal.KdeValue

open Idealize.ShloMosaic Idealize.ShloMosaic.TcCoe Idealize.ShloMosaic.ValueIdx Idealize.SL.Sem
open Idealize.ShloMosaic.Pipeline (Dat)
open Cert.KernelIdeal Cert.KernelIdeal.Gen Cert.Kde Cert.KernelIdeal.Blocks Cert.KernelIdeal.Pieces Cert.KernelIdeal.Pay

variable (m : (ℓ : Loc nD τ sig) → Buf (Elt Ideal) ℓ) (ρ : Dev nD → PrngReg)

/-- One column block's contribution: the stored column is the column found plus, at row `p`, the block sum of row
    `1024·(t/16) + p` over column block `t % 16`. -/
theorem acc_step (c : Dev nD) (t : Fin cfg0.N) (xo : Vec Ideal S1024x1 .f32) (p : Fin 1024) :
    k0_pay2 (F := Ideal) (xblk m c t) (yblk m c t) (ablk m c t) (bblk m c t) xo (ix2 p (0 : Fin 1))
      = xo (ix2 p (0 : Fin 1)) + blockSum (Xarr m c) (Yarr m c) (at16 (t.val / 16) p.val) (t.val % 16) := by
  rw [pay2_apply]
  unfold blockSum kterm dotp
  refine congrArg (_ + ·) (Finset.sum_congr rfl fun q _ => ?_)
  rw [ablk_apply, bblk_apply]
  refine congrArg (fun z => Ideal.exp (((z + _) + _) - _)) (Finset.sum_congr rfl fun k _ => ?_)
  rw [xblk_apply, yblk_apply]

/-- The output column after a point, by the point's case: the first column block, -/
theorem outs_A (c : Dev nD) (t : Fin cfg0.N) (h0 : t.val % 16 = 0) (h1 : ¬t.val % 16 = 15) :
    outsAt0 m c t.val t.isLt = k0_pay2 (xblk m c t) (yblk m c t) (ablk m c t) (bblk m c t) (k0_pay1 (F := Ideal)) :=
  (outsAt0_A m c t h0 h1).trans (out_A c (grid0.coords t) (ms0_0 t) (hs0_0 t) (ms0_1 t) (hs0_1 t) (ms0_2 t) (hs0_2 t) (ms0_3 t) (hs0_3 t) (ms0_4 t) (hs0_4 t) ((hcond0_0 t).mpr h0) (fun h => h1 ((hcond0_1 t).mp h)) (iblk m c 0 t) (iblk m c 1 t) (iblk m c 2 t) (iblk m c 3 t))

/-- a middle one, over what the point before left, -/
theorem outs_B (c : Dev nD) (t : Fin cfg0.N) (h0 : ¬t.val % 16 = 0) (h1 : ¬t.val % 16 = 15) :
    outsAt0 m c t.val t.isLt = k0_pay2 (xblk m c t) (yblk m c t) (ablk m c t) (bblk m c t) (outsAt0 m c (t.val - 1) (Nat.lt_of_le_of_lt (Nat.sub_le _ _) t.isLt)) :=
  (outsAt0_B m c t h0 h1).trans (out_B c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)))

/-- and the last one, scaled. -/
theorem outs_C (c : Dev nD) (t : Fin cfg0.N) (h0 : ¬t.val % 16 = 0) (h1 : t.val % 16 = 15) :
    outsAt0 m c t.val t.isLt = k0_pay3 (k0_pay2 (xblk m c t) (yblk m c t) (ablk m c t) (bblk m c t) (outsAt0 m c (t.val - 1) (Nat.lt_of_le_of_lt (Nat.sub_le _ _) t.isLt))) :=
  (outsAt0_C m c t h0 h1).trans (out_C c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)))

/-- What the output column holds at row `p` after point `n`: the running sum through column block `n % 16` of row
    `1024·(n/16) + p`, or, once the last column block is done, the scaled total. -/
def colAfter (c : Dev nD) (n : ℕ) (p : Fin 1024) : EReal :=
  if n % 16 = 15 then kernelVal (Xarr m c) (Yarr m c) (at16 (n / 16) p.val)
  else accVal (Xarr m c) (Yarr m c) (at16 (n / 16) p.val) (n % 16)

/-- At a first column block the running sum restarts from zero. -/
theorem col_first (c : Dev nD) (t : Fin cfg0.N) (h0 : t.val % 16 = 0) (p : Fin 1024) :
    outsAt0 m c t.val t.isLt (ix2 p (0 : Fin 1)) = colAfter m c t.val p := by
  have h1 : ¬t.val % 16 = 15 := by omega
  rw [outs_A m c t h0 h1, acc_step, pay1_apply]
  unfold colAfter
  rw [if_neg h1, h0, accVal_zero]

/-- The invariant, by induction on the point: a point that is not a first column block adds its block sum to what
    the point before left in the same row block. -/
theorem outsAt_apply (c : Dev nD) : ∀ (n : ℕ) (h : n < cfg0.N) (p : Fin 1024),
    outsAt0 m c n h (ix2 p (0 : Fin 1)) = colAfter m c n p
  | 0, h, p => col_first m c ⟨0, h⟩ rfl p
  | n + 1, h, p => by
    have hN : n + 1 < 256 := lt_of_lt_of_eq h (show cfg0.N = 256 from N_0)
    by_cases h0 : (n + 1) % 16 = 0
    · exact col_first m c ⟨n + 1, h⟩ h0 p
    · have ih := outsAt_apply c n (Nat.lt_of_succ_lt h) p
      have hprev : ¬n % 16 = 15 := by omega
      have hdiv : n / 16 = (n + 1) / 16 := by omega
      by_cases h1 : (n + 1) % 16 = 15
      · have e := outs_C m c ⟨n + 1, h⟩ h0 h1
        rw [show outsAt0 m c (n + 1) h = _ from e, pay3_apply, acc_step]
        show (outsAt0 m c n _ (ix2 p (0 : Fin 1))
          + blockSum (Xarr m c) (Yarr m c) (at16 ((n + 1) / 16) p.val) ((n + 1) % 16)) * cInvN = _
        rw [ih]
        unfold colAfter
        rw [if_neg hprev, if_pos h1, hdiv]
        unfold kernelVal
        have h14 : n % 16 = 14 := by omega
        rw [h14, h1]
        exact congrArg (· * cInvN) (accVal_succ _ _ _ 14).symm
      · have e := outs_B m c ⟨n + 1, h⟩ h0 h1
        rw [show outsAt0 m c (n + 1) h = _ from e, acc_step]
        show outsAt0 m c n _ (ix2 p (0 : Fin 1))
          + blockSum (Xarr m c) (Yarr m c) (at16 ((n + 1) / 16) p.val) ((n + 1) % 16) = _
        rw [ih]
        unfold colAfter
        rw [if_neg hprev, if_neg h1, hdiv]
        have hmod : (n + 1) % 16 = n % 16 + 1 := by omega
        rw [hmod]
        exact (accVal_succ _ _ _ (n % 16)).symm

/-- The output window's block index at point `t` is `(t / 16, 0)`. -/
theorem idx4 : ∀ t : Fin cfg0.N, win0_4.index t (0 : Fin 2) = t.val / 16 ∧ win0_4.index t (1 : Fin 2) = 0 :=
  (by decide +kernel : ∀ t : Fin grid0.N, win0_4.index t (0 : Fin 2) = t.val / 16 ∧ win0_4.index t (1 : Fin 2) = 0)

/-- The result column: the scaled total of every row. -/
def colArr (c : Dev nD) : Buf (Elt Ideal) ((c : Thread nD τ).loc main_v11) :=
  fun i : S16384x1.Idx => kernelVal (Xarr m c) (Yarr m c) (i 0)

/-- After a last column block the buffer holds the scaled totals of its row block. -/
theorem col_last (c : Dev nD) (t : Fin cfg0.N) (h15 : t.val % 16 = 15) (y : S1024x1.Idx) :
    outsAt0 m c t.val t.isLt y = kernelVal (Xarr m c) (Yarr m c) (at16 (t.val / 16) (y 0).val) := by
  obtain ⟨p, z, rfl⟩ : ∃ (p : Fin 1024) (z : Fin 1), y = ix2 p z := ⟨y 0, y 1, eq_ix2 y⟩
  obtain rfl : z = 0 := Subsingleton.elim _ _
  rw [outsAt_apply]
  unfold colAfter
  rw [if_pos h15]

/-- What a write-back writes is its block of the result column: row `p` of block `t / 16` is row `1024·(t/16) + p`. -/
theorem flushed_eq (c : Dev nD) (t : Fin cfg0.N) (hf : (cfg0.win 4).flush t = true) :
    (dats m 0 c).flushed 4 t = ((cfg0.win 4).blk t).view.read (Elt Ideal) (colArr m c) := by
  have h15 : t.val % 16 = 15 := (flush0_4 t).mp hf
  have hN : t.val < 256 := lt_of_lt_of_eq t.isLt (show cfg0.N = 256 from N_0)
  obtain ⟨e0, e1⟩ := idx4 t
  show (cfg0.win 4).cut (grid0.coords t) ((dats m 0 c).after 4 t) = _
  rw [after0_4]
  funext j
  have hj : (j 0).val < 1024 := (j 0).isLt
  show outsAt0 m c t.val t.isLt j = colArr m c (((cfg0.win 4).blk t).view.emb j)
  refine (col_last m c t h15 j).trans ?_
  show _ = kernelVal (Xarr m c) (Yarr m c) ((((cfg0.win 4).blk t).view.emb j) 0)
  refine congrArg (kernelVal (Xarr m c) (Yarr m c)) (Fin.ext ?_)
  show (1024 * (t.val / 16) + (j 0).val) % 16384 = win0_4.index t (0 : Fin 2) * 1024 + 1 * (j 0).val
  rw [e0]
  omega

/-- An index is in a point's block iff each coordinate is in the block's range. -/
theorem mem_blk4 (t : Fin cfg0.N) (i : S16384x1.Idx) :
    i ∈ ((cfg0.win 4).blk t).view.set ↔ ∀ a : Fin 2, win0_4.index t a * S1024x1.size a ≤ (i a).val
      ∧ (i a).val < win0_4.index t a * S1024x1.size a + S1024x1.size a := by
  show i ∈ ((View.whole main_v11).slice (win0_4.rect t)).set ↔ _
  rw [View.set_slice_whole, Rect.mem_set_unit]
  exact Iff.rfl

/-- Row `r` is written back by the last column block of row block `r / 1024`. -/
theorem covered (i : S16384x1.Idx) :
    ∃ t : Fin cfg0.N, (cfg0.win 4).flush t = true ∧ i ∈ ((cfg0.win 4).blk t).view.set := by
  have hi0 : (i 0).val < 16384 := (i 0).isLt
  have hi1 : (i 1).val < 1 := (i 1).isLt
  have hlt : 16 * ((i 0).val / 1024) + 15 < cfg0.N := by rw [show cfg0.N = 256 from N_0]; omega
  obtain ⟨e0, e1⟩ := idx4 ⟨16 * ((i 0).val / 1024) + 15, hlt⟩
  refine ⟨⟨16 * ((i 0).val / 1024) + 15, hlt⟩, (flush0_4 _).mpr (by show (16 * ((i 0).val / 1024) + 15) % 16 = 15; omega), ?_⟩
  rw [mem_blk4]
  intro a
  match a with
  | ⟨0, _⟩ =>
    show win0_4.index ⟨16 * ((i 0).val / 1024) + 15, hlt⟩ (0 : Fin 2) * 1024 ≤ (i 0).val
      ∧ (i 0).val < win0_4.index ⟨16 * ((i 0).val / 1024) + 15, hlt⟩ (0 : Fin 2) * 1024 + 1024
    rw [e0]; dsimp only; omega
  | ⟨1, _⟩ =>
    show win0_4.index ⟨16 * ((i 0).val / 1024) + 15, hlt⟩ (1 : Fin 2) * 1 ≤ (i 1).val
      ∧ (i 1).val < win0_4.index ⟨16 * ((i 0).val / 1024) + 15, hlt⟩ (1 : Fin 2) * 1 + 1
    rw [e1]; omega

/-- So the array ends at the result column. -/
theorem final_col (c : Dev nD) : (dats m 0 c).arrAt 4 cfg0.N = colArr m c :=
  (dats m 0 c).arrAt_eq_of_cover 4 (colArr m c) (flushed_eq m c) covered

/-- The result vector. -/
def result (c : Dev nD) : Buf (Elt Ideal) ((c : Thread nD τ).loc main_v12) :=
  fun i : S16384.Idx => kernelVal (Xarr m c) (Yarr m c) (i 0)

/-- The host's reshape of the column to a vector keeps row `r` at position `r`. -/
theorem tail_eq (c : Dev nD) :
    Pipeline.afterTail₀ cfgs (dats m) 0 (V0 m) [hostOps1] c main_v12 = result m c := by
  unfold Pipeline.afterTail₀
  show StableHlo.after hostOps1 _ (Proc.devRef .tc main_v12) = _
  after_results
  funext i
  obtain ⟨r, rfl⟩ : ∃ r : Fin 16384, i = ix1 r := ⟨i 0, eq_ix1 i⟩
  show shapeCast S16384 (Pipeline.withArrays (cfgs 0).spec c (V0 m c) (fun w => (dats m 0 c).arrAt w (cfgs 0).N)
    (Proc.tc.devRef main_v11)) shapeCasts_S16384x1_S16384 (ix1 r) = _
  rw [show Pipeline.withArrays (cfgs 0).spec c (V0 m c) (fun w => (dats m 0 c).arrAt w (cfgs 0).N)
      (Proc.tc.devRef main_v11) = colArr m c from
    (Pipeline.withArrays_arr spec0 launch0.win.arr_inj c _ _ 4).trans (final_col m c)]
  refine (shapeCast_apply (colArr m c) shapeCasts_S16384x1_S16384 (ix1 r) (ix2 r (0 : Fin 1)) ?_).trans rfl
  show ((⟨2, ![16384, 1]⟩ : Shape).rowMajor (ix2 r (0 : Fin 1))).val = ((⟨1, ![16384]⟩ : Shape).rowMajor (ix1 r)).val
  rw [Shape.rowMajor_val_two, Shape.rowMajor_val_one]
  show r.val * 1 + 0 = r.val
  omega

/-- The run: the result vector at the scaled totals, the arguments unchanged. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v12 (Pipeline.mem_restRefs_of main_v12 rfl (fun w => by fin_cases w <;> decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.KdeValue

end
-- ==== Proof.lean ====
/- The certificate of the Gaussian kernel-density score: for every row `x_r` of `X`, the mean over the rows `y_s`
   of `Y` of `exp (-½|x_r - y_s|² - c)`. The kernel expands the square, `⟨x_r, y_s⟩ + (-½)|x_r|² + (-½)|y_s|² - c`,
   sums the exponentials column block by column block and scales by `2⁻¹⁴`; the reference forms
   `(-½)((|x_r|² + |y_s|²) - 2⟨x_r, y_s⟩) - c`, sums all columns and divides by `16384`. On finite inputs the two
   exponents are one real number, the block sums add up to the whole sum, and `2⁻¹⁴ = 1/16384`. -/
import proofs.«114657_j82635170775443_1_alg».proof.Defs
import proofs.«114657_j82635170775443_1_alg».proof.Proof.Gen.Kernel
import proofs.«114657_j82635170775443_1_alg».proof.Proof.Gen.Kernel.Frame
import proofs.«114657_j82635170775443_1_alg».proof.Proof.Gen.KernelIdeal
import proofs.«114657_j82635170775443_1_alg».proof.Proof.Gen.KernelIdeal.Frame
import proofs.«114657_j82635170775443_1_alg».proof.Proof.Gen.ReferenceIdeal
import proofs.«114657_j82635170775443_1_alg».proof.Proof.Gen.ReferenceIdeal.Run
import proofs.«114657_j82635170775443_1_alg».proof.Proof.Gen.ReferenceIdeal.Read
import proofs.«114657_j82635170775443_1_alg».proof.Proof.Gen.Pre_finite_inputs
import proofs.«114657_j82635170775443_1_alg».proof.Proof.KdeSpec
import proofs.«114657_j82635170775443_1_alg».proof.Proof.KdeFinite
import proofs.«114657_j82635170775443_1_alg».proof.Proof.RefValue
import proofs.«114657_j82635170775443_1_alg».proof.Proof.KdeValue
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the same vector: the kernel's scaled totals are the reference's quotients, row by row,
    because the inputs are finite. -/
theorem algebraic : Cert.algebraic_KernelIdeal_ReferenceIdeal := by
  intro m ρ m' ρ' hpre hagree
  refine ⟨fun c => Cert.KernelIdeal.KdeValue.result m c, Cert.KernelIdeal.KdeValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, (hagree c).1, (hagree c).2]
  obtain ⟨hX, hY⟩ := Cert.Kde.Finite.real_of_pre _ _ (hpre c)
  funext i
  obtain ⟨r, rfl⟩ : ∃ r : Fin 16384, i = ix1 r := ⟨i 0, eq_ix1 i⟩
  rw [Cert.ReferenceIdeal.RefValue.ref_apply]
  exact (Cert.Kde.kernelVal_eq_refVal _ _ hX hY r).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
